-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x1024 : Shape := ⟨4, ![4, 16, 1024, 1024]⟩
abbrev S4x16x1024x64 : Shape := ⟨4, ![4, 16, 1024, 64]⟩
abbrev S_ : Shape := ⟨0, ![]⟩

class Facts : Prop where
  bcast_S_S4x16x1024x1024 : S_.BroadcastsInDim S4x16x1024x1024 (![] : Fin 0 → Fin S4x16x1024x1024.rank)
  reducesTo_S4x16x1024x1024_S_d0_1_2_3 : S4x16x1024x1024.ReducesTo [0, 1, 2, 3] S_
  h_S_ : 0 < S_.numel
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_

variable [Facts]

def fn {F : FTy → Type} [FloatOps F] (main_arg0 : FVec F S4x16x1024x1024 .f32) (main_arg1 : FVec F S4x16x1024x64 .f32) : IVec S_ 1 :=
  let main_v0 : FVec F S4x16x1024x1024 .f32 := Host.absf main_arg0
  let main_cst : FVec F S_ .f32 := constant S_ .f32 0x7F800000#32
  let main_v1 : FVec F S4x16x1024x1024 .f32 := broadcastInDim S4x16x1024x1024 ![] bcast_S_S4x16x1024x1024 main_cst
  let main_v2 : IVec S4x16x1024x1024 1 := cmpf .olt main_v0 main_v1
  let main_c : IVec S_ 1 := constantI S_ 1 1#1
  let main_v3 : IVec S_ 1 := (fun x v => Host.reduce IntOp.andi x v reducesTo_S4x16x1024x1024_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  main_v8
-- ==== Kernel.lean ====
abbrev S4x16x1024x1024 : Shape := ⟨4, ![4, 16, 1024, 1024]⟩
abbrev S4x16x1024x64 : Shape := ⟨4, ![4, 16, 1024, 64]⟩
abbrev S64x1024x1024 : Shape := ⟨3, ![64, 1024, 1024]⟩
abbrev S64x1024x64 : Shape := ⟨3, ![64, 1024, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024x64 : Shape := ⟨2, ![1024, 64]⟩

abbrev nBuf : Space → Nat
  | .hbm => 6
  | .vmem => 6
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024x64, .f32⟩
  | .hbm, ⟨2, _⟩ => ⟨S64x1024x1024, .f32⟩
  | .hbm, ⟨3, _⟩ => ⟨S64x1024x64, .f32⟩
  | .hbm, ⟨4, _⟩ => ⟨S64x1024x64, .f32⟩
  | .hbm, ⟨5, _⟩ => ⟨S4x16x1024x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x16x1024x1024_S64x1024x1024 : S4x16x1024x1024.ShapeCasts S64x1024x1024
  shapeCasts_S4x16x1024x64_S64x1024x64 : S4x16x1024x64.ShapeCasts S64x1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  shapeCasts_S64x1024x64_S4x16x1024x64 : S64x1024x64.ShapeCasts S4x16x1024x64
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16x1024x1024 : Shape := ⟨4, ![4, 16, 1024, 1024]⟩
abbrev S4x16x1024x64 : Shape := ⟨4, ![4, 16, 1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024x64, .f32⟩
  | .hbm, ⟨2, _⟩ => ⟨S4x16x1024x64, .f32⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.BatchedProduct.lean ====
import Idealize.ShloMosaic.PureOps.Ideal
import Idealize.ShloMosaic.Lib.ValueIdx
import Idealize.ShloMosaic.Lib.Pipeline.Value

/-!
# A batched matrix product, over two batch axes and over their row-major fusion

batched4 s v is the product with two leading batch axes,
out[b, m, q, h] = Σₖ s[b, m, q, k] · v[b, m, k, h], over the extended reals; batched3 s v is the same product with
ONE batch axis, out[j, q, h] = Σₖ s[j, q, k] · v[j, k, h].  Fusing the two batch axes (b, m) of extents (4, 16) into one
axis j = 16·b + m of extent 64 is a row-major re-indexing that leaves the last two axes alone, and the sum over k runs
over the last axis of s and the second-to-last of v: so the fused product of the fused operands, unfused, is the
product of the operands (regroup).  Nothing here adds in another order: each entry is the same sum of the same
terms, term by term, so no finiteness of the entries is needed.
-/

noncomputable section

namespace Cert.BatchedProduct

open Idealize.ShloMosaic Idealize.ShloMosaic.ValueIdx

abbrev SA4 : Shape := ⟨4, ![4, 16, 1024, 1024]⟩
abbrev SB4 : Shape := ⟨4, ![4, 16, 1024, 64]⟩
abbrev SA3 : Shape := ⟨3, ![64, 1024, 1024]⟩
abbrev SB3 : Shape := ⟨3, ![64, 1024, 64]⟩

/-- out[b, m, q, h] = Σₖ s[b, m, q, k] · v[b, m, k, h]. -/
def batched4 (s : SA4.Idx → EReal) (v : SB4.Idx → EReal) : SB4.Idx → EReal :=
  fun i => ∑ k : Fin 1024, s (ix4 (i 0) (i 1) (i 2) k) * v (ix4 (i 0) (i 1) k (i 3))

/-- out[j, q, h] = Σₖ s[j, q, k] · v[j, k, h]. -/
def batched3 (s : SA3.Idx → EReal) (v : SB3.Idx → EReal) : SB3.Idx → EReal :=
  fun j => ∑ k : Fin 1024, s (ix3 (j 0) (j 1) k) * v (ix3 (j 0) k (j 2))

/-- The fused batch coordinate 16·b + m is below 64. -/
theorem fused_lt (b : Fin 4) (m : Fin 16) : b.val * 16 + m.val < 64 := by
  have := b.isLt; have := m.isLt; omega

/-- The left operand with its batch axes fused, read at (16·b + m, q, k), is the operand at (b, m, q, k). -/
theorem fuse_left (s : SA4.Idx → EReal) (h : SA4.ShapeCasts SA3) (b : Fin 4) (m : Fin 16) (q k : Fin 1024) :
    shapeCast SA3 s h (ix3 ⟨b.val * 16 + m.val, fused_lt b m⟩ q k) = s (ix4 b m q k) :=
  shapeCast_apply s h _ (ix4 b m q k) (by
    rw [Shape.rowMajor_val_four, Shape.rowMajor_val_three]
    rfl)

/-- The right operand with its batch axes fused, read at (16·b + m, k, n), is the operand at (b, m, k, n). -/
theorem fuse_right (v : SB4.Idx → EReal) (h : SB4.ShapeCasts SB3) (b : Fin 4) (m : Fin 16) (k : Fin 1024) (n : Fin 64) :
    shapeCast SB3 v h (ix3 ⟨b.val * 16 + m.val, fused_lt b m⟩ k n) = v (ix4 b m k n) :=
  shapeCast_apply v h _ (ix4 b m k n) (by
    rw [Shape.rowMajor_val_four, Shape.rowMajor_val_three]
    rfl)

/-- A fused result unfused, read at (b, m, q, n), is the fused result at (16·b + m, q, n). -/
theorem unfuse (o : SB3.Idx → EReal) (h : SB3.ShapeCasts SB4) (b : Fin 4) (m : Fin 16) (q : Fin 1024) (n : Fin 64) :
    shapeCast SB4 o h (ix4 b m q n) = o (ix3 ⟨b.val * 16 + m.val, fused_lt b m⟩ q n) :=
  shapeCast_apply o h _ _ (by
    rw [Shape.rowMajor_val_four, Shape.rowMajor_val_three]
    rfl)

/-- THE LAW: fuse the batch axes of both operands, multiply with one batch axis, unfuse the result: that is the
    product with two batch axes. -/
theorem regroup (s : SA4.Idx → EReal) (v : SB4.Idx → EReal) (h1 : SA4.ShapeCasts SA3) (h2 : SB4.ShapeCasts SB3)
    (h3 : SB3.ShapeCasts SB4) :
    shapeCast SB4 (batched3 (shapeCast SA3 s h1) (shapeCast SB3 v h2)) h3 = batched4 s v := by
  funext i
  obtain ⟨b, m, q, n, rfl⟩ : ∃ (b : Fin 4) (m : Fin 16) (q : Fin 1024) (n : Fin 64), i = ix4 b m q n :=
    ⟨i 0, i 1, i 2, i 3, eq_ix4 i⟩
  rw [unfuse]
  show ∑ k : Fin 1024, shapeCast SA3 s h1 (ix3 ⟨b.val * 16 + m.val, fused_lt b m⟩ q k)
        * shapeCast SB3 v h2 (ix3 ⟨b.val * 16 + m.val, fused_lt b m⟩ k n)
      = ∑ k : Fin 1024, s (ix4 b m q k) * v (ix4 b m k n)
  refine Finset.sum_congr rfl fun k _ => ?_
  rw [fuse_left, fuse_right]

end Cert.BatchedProduct

end
-- ==== Proof.ReferenceProduct.lean ====
import proofs.«123830_j74062416052398_1_alg».proof.Proof.Gen.ReferenceIdeal.Read
import proofs.«123830_j74062416052398_1_alg».proof.Proof.BatchedProduct

/-!
# The reference computes the product with two batch axes

The reference is one dot_general with batch axes (0, 1) on both sides, contracting the last axis of the left operand
with the third of the right: at an output index (b, m, q, h) it is Σₖ s[b, m, q, k] · v[b, m, k, h] on the extended
reals.  The generated reading of that operation states the sum over its own index functions; here they are identified,
coordinate by coordinate, with the indices the specification is written over.
-/

noncomputable section

namespace Cert.ReferenceIdeal.RefValue

open Cert.ReferenceIdeal Cert.ReferenceIdeal.Gen Idealize.ShloMosaic Idealize.ShloMosaic.ValueIdx Cert.BatchedProduct

/-- The left operand's index at contracted coordinate k: the output's (b, m, q) and k. -/
theorem left_index (i : S4x16x1024x64.Idx) (k : Fin 1024) : Read.lidx_main_v0 i k = ix4 (i 0) (i 1) (i 2) k :=
  funext fun a => Fin.ext (by
    match a with
    | ⟨0, _⟩ => rfl
    | ⟨1, _⟩ => rfl
    | ⟨2, _⟩ => rfl
    | ⟨3, _⟩ => rfl)

/-- The right operand's index at contracted coordinate k: the output's (b, m), then k, then the output's h. -/
theorem right_index (i : S4x16x1024x64.Idx) (k : Fin 1024) : Read.ridx_main_v0 i k = ix4 (i 0) (i 1) k (i 3) :=
  funext fun a => Fin.ext (by
    match a with
    | ⟨0, _⟩ => rfl
    | ⟨1, _⟩ => rfl
    | ⟨2, _⟩ => rfl
    | ⟨3, _⟩ => rfl)

/-- The reference's one stage is the product with two batch axes. -/
theorem reference_eq (x0 : SA4.Idx → EReal) (x1 : SB4.Idx → EReal) :
    Read.val_main_v0 (F := Ideal) x0 x1 = batched4 x0 x1 := by
  funext i
  rw [Read.val_main_v0_apply]
  show _ = ∑ k : Fin 1024, x0 (ix4 (i 0) (i 1) (i 2) k) * x1 (ix4 (i 0) (i 1) k (i 3))
  refine Finset.sum_congr rfl fun k _ => ?_
  exact congrArg₂ (· * ·) (congrArg x0 (left_index i k)) (congrArg x1 (right_index i k))

end Cert.ReferenceIdeal.RefValue

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.BodyProduct.lean ====
import proofs.«123830_j74062416052398_1_alg».proof.Proof.Gen.KernelIdeal.Skeleton
import proofs.«123830_j74062416052398_1_alg».proof.Proof.LibPlainMatmul
import proofs.«123830_j74062416052398_1_alg».proof.Proof.BatchedProduct
import Idealize.ShloMosaic.Lib.Pipeline.Value
import Idealize.ShloMosaic.Lib.ValueIdx

/-!
# What the kernel body stores, entry by entry

At a grid point the body loads a [1, 1024, 1024] block of the left operand and a [1, 1024, 64] block of the right,
drops the unit axis of each, narrows both to bf16 (the identity on the extended reals), multiplies them on the matrix
unit into a zero accumulator, and stores the result with the unit axis put back.  So the stored block at (z, q, n) is
Σₖ left[z, q, k] · right[z, k, n]  (z ranges over the one-element axis).

If the two loaded blocks are slab p of a [64, 1024, 1024] array A and of a [64, 1024, 64] array B, that entry is the
entry (p, q, n) of the product of A and B with one batch axis (block_entry).
-/

noncomputable section

namespace Cert.KernelIdeal.Body

open Cert.KernelIdeal Cert.KernelIdeal.Gen Idealize.ShloMosaic Idealize.ShloMosaic.ValueIdx Cert.BatchedProduct

/-- The stored block at (z, q, n): the sum over k of left (z, q, k) times right (z, k, n). -/
theorem body_entry (x0 : Vec Ideal S1x1024x1024 .f32) (x1 : Vec Ideal S1x1024x64 .f32) (z : Fin 1) (q : Fin 1024) (n : Fin 64) :
    k0_pay1 (F := Ideal) x0 x1 (ix3 z q n) = ∑ k : Fin 1024, x0 (ix3 z q k) * x1 (ix3 z k n) := by
  have hz : z.val = 0 := by have := z.isLt; omega
  unfold k0_pay1
  -- the stored value is the matrix product with a unit axis in front
  refine (shapeCast_apply _ _ (ix3 z q n) (ix2 q n) ?_).trans ?_
  · rw [Shape.rowMajor_val_two, Shape.rowMajor_val_three]
    show q.val * 64 + n.val = (z.val * 1024 + q.val) * 64 + n.val
    rw [hz]; omega
  -- the matrix product into the zero accumulator, at the entry (q, n)
  refine (PlainMatmul.matmul_plain_zero_apply 1024 1024 64 none _ _ q n).trans ?_
  refine Finset.sum_congr rfl fun k _ => ?_
  -- each factor: the narrowing is the identity, and dropping the unit axis reads the block at (z, ·, ·)
  refine congrArg₂ (· * ·) (shapeCast_apply x0 _ (ix2 q k) (ix3 z q k) ?_) (shapeCast_apply x1 _ (ix2 k n) (ix3 z k n) ?_)
  · rw [Shape.rowMajor_val_two, Shape.rowMajor_val_three]
    show (z.val * 1024 + q.val) * 1024 + k.val = q.val * 1024 + k.val
    rw [hz]; omega
  · rw [Shape.rowMajor_val_two, Shape.rowMajor_val_three]
    show (z.val * 1024 + k.val) * 64 + n.val = k.val * 64 + n.val
    rw [hz]; omega

/-- When the loaded blocks are slab p of A and of B, the stored block at y is the one-batch-axis product of A and B at
    the array index i that sits under y: slab p, and y's row and column. -/
theorem block_entry (A : SA3.Idx → EReal) (B : SB3.Idx → EReal)
    (x0 : Vec Ideal S1x1024x1024 .f32) (x1 : Vec Ideal S1x1024x64 .f32) (p : Fin 64)
    (h0 : ∀ (z : Fin 1) (q k : Fin 1024), x0 (ix3 z q k) = A (ix3 p q k))
    (h1 : ∀ (z : Fin 1) (k : Fin 1024) (n : Fin 64), x1 (ix3 z k n) = B (ix3 p k n))
    (y : S1x1024x64.Idx) (i : SB3.Idx) (hi0 : (i 0).val = p.val) (hi1 : (i 1).val = (y 1).val) (hi2 : (i 2).val = (y 2).val) :
    k0_pay1 (F := Ideal) x0 x1 y = batched3 A B i := by
  obtain ⟨z, q, n, rfl⟩ : ∃ (z : Fin 1) (q : Fin 1024) (n : Fin 64), y = ix3 z q n := ⟨y 0, y 1, y 2, eq_ix3 y⟩
  obtain rfl : i = ix3 p q n := funext fun a => Fin.ext (by
    match a with
    | ⟨0, _⟩ => exact hi0
    | ⟨1, _⟩ => exact hi1
    | ⟨2, _⟩ => exact hi2)
  rw [body_entry]
  show _ = ∑ k : Fin 1024, A (ix3 p q k) * B (ix3 p k n)
  refine Finset.sum_congr rfl fun k _ => ?_
  rw [h0, h1]

end Cert.KernelIdeal.Body

end
-- ==== Proof.KernelRun.lean ====
import proofs.«123830_j74062416052398_1_alg».proof.Proof.Gen.KernelIdeal.Frame
import proofs.«123830_j74062416052398_1_alg».proof.Proof.BodyProduct
import proofs.«123830_j74062416052398_1_alg».proof.Proof.BatchedProduct
import Idealize.ShloMosaic.Lib.Pipeline.Value
import Idealize.ShloMosaic.Lib.StableHlo.Run
import Idealize.ShloMosaic.Lib.Tactic

/-!
# The kernel program's result is the product with two batch axes

The program fuses the two batch axes of both operands (two host reshapes, to [64, 1024, 1024] and [64, 1024, 64]),
runs the kernel on a grid of 64 points, and unfuses the batch axis of the kernel's [64, 1024, 64] result (a third host
reshape).  Point t of the grid is handed slab t of each fused operand and writes slab t of the fused result; by the
body's entry formula that slab is slab t of the one-batch-axis product of the fused operands (flushed_eq).  The 64
slabs tile the fused result (covered), so after the region it IS that product (fused_result), and by the regrouping
law the unfused result is the product with two batch axes of the operands as launched (result_eq, run).
-/

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.BatchedProduct

variable (m : (ℓ : Loc nD τ sig) → Buf (Elt Ideal) ℓ) (ρ : Dev nD → PrngReg)

theorem zero3 : (![0, 0, 0] : Fin 3 → Nat) = fun _ => 0 := funext fun a => by fin_cases a <;> rfl

/-- A grid point's number is a slab number. -/
theorem point_lt (t : Fin cfg0.N) : t.val < 64 := by
  have h := t.isLt
  have hN : cfg0.N = 64 := N_0
  omega

/-- Every window's block index at point t is (t, 0, 0): slab t, whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The left operand's block at point t is slab t of the fused left operand. -/
theorem left_block (c : Dev nD) (t : Fin cfg0.N) (z : Fin 1) (q k : Fin 1024) :
    (iblk m c 0 t : Vec Ideal S1x1024x1024 .f32) (ix3 z q k)
      = (V m c main_v0 : SA3.Idx → EReal) (ix3 ⟨t.val, point_lt t⟩ q k) := by
  obtain ⟨e0, e1, e2, -⟩ := idx_facts t
  have hz : z.val < 1 := z.isLt
  unfold iblk
  rw [View.read_apply]
  show V m c main_v0 _ = V m c main_v0 _
  congr 1
  funext a
  apply Fin.ext
  match a with
  | ⟨0, _⟩ => show win0_0.index t (0 : Fin 3) * 1 + 1 * z.val = t.val; omega
  | ⟨1, _⟩ => show win0_0.index t (1 : Fin 3) * 1024 + 1 * q.val = q.val; omega
  | ⟨2, _⟩ => show win0_0.index t (2 : Fin 3) * 1024 + 1 * k.val = k.val; omega

/-- The right operand's block at point t is slab t of the fused right operand. -/
theorem right_block (c : Dev nD) (t : Fin cfg0.N) (z : Fin 1) (k : Fin 1024) (n : Fin 64) :
    (iblk m c 1 t : Vec Ideal S1x1024x64 .f32) (ix3 z k n)
      = (V m c main_v1 : SB3.Idx → EReal) (ix3 ⟨t.val, point_lt t⟩ k n) := by
  obtain ⟨-, -, -, e0, e1, e2, -⟩ := idx_facts t
  have hz : z.val < 1 := z.isLt
  unfold iblk
  rw [View.read_apply]
  show V m c main_v1 _ = V m c main_v1 _
  congr 1
  funext a
  apply Fin.ext
  match a with
  | ⟨0, _⟩ => show win0_1.index t (0 : Fin 3) * 1 + 1 * z.val = t.val; omega
  | ⟨1, _⟩ => show win0_1.index t (1 : Fin 3) * 1024 + 1 * k.val = k.val; omega
  | ⟨2, _⟩ => show win0_1.index t (2 : Fin 3) * 64 + 1 * n.val = n.val; omega

/-- WHAT POINT t WRITES BACK is block t of the one-batch-axis product of the fused operands. -/
theorem flushed_eq (c : Dev nD) (t : Fin cfg0.N) :
    (dats m 0 c).flushed 2 t
      = ((cfg0.win 2).blk t).view.read (Elt Ideal) (batched3 (V m c main_v0) (V m c main_v1)) := by
  show (cfg0.win 2).cut (grid0.coords t) ((dats m 0 c).after 2 t) = _
  rw [after0_2]
  unfold out0_2
  rw [View.canon_unit_zero zero3]
  simp only [View.ld_unit_zero (S := S1x1024x1024) zero3, View.ld_unit_zero (S := S1x1024x64) zero3]
  obtain ⟨-, -, -, -, -, -, e0, e1, e2⟩ := idx_facts t
  funext j
  have hj : (j 0).val < 1 := (j 0).isLt
  refine Body.block_entry (V m c main_v0) (V m c main_v1) (iblk m c 0 t) (iblk m c 1 t) ⟨t.val, point_lt t⟩
    (left_block m c t) (right_block m c t) j (((cfg0.win 2).blk t).view.emb j) ?_ ?_ ?_
  · show win0_2.index t (0 : Fin 3) * 1 + 1 * (j 0).val = t.val; omega
  · show win0_2.index t (1 : Fin 3) * 1024 + 1 * (j 1).val = (j 1).val; omega
  · show win0_2.index t (2 : Fin 3) * 64 + 1 * (j 2).val = (j 2).val; omega

/-- An index of the fused result is in point t's block iff each coordinate is in the block's range on its axis. -/
theorem mem_blk (t : Fin cfg0.N) (i : SB3.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v2).slice (win0_2.rect t)).set ↔ _
  rw [View.set_slice_whole, Rect.mem_set_unit]
  exact Iff.rfl

/-- Every index (j, q, n) of the fused result is in the block of point j. -/
theorem covered (i : SB3.Idx) :
    ∃ t : Fin cfg0.N, (cfg0.win 2).flush t = true ∧ i ∈ ((cfg0.win 2).blk t).view.set := by
  have h0 : (i 0).val < 64 := (i 0).isLt
  have h1 : (i 1).val < 1024 := (i 1).isLt
  have h2 : (i 2).val < 64 := (i 2).isLt
  have hN : (i 0).val < cfg0.N := by rw [show cfg0.N = 64 from N_0]; exact h0
  obtain ⟨-, -, -, -, -, -, e0, e1, e2⟩ := idx_facts ⟨(i 0).val, hN⟩
  have e0' : win0_2.index ⟨(i 0).val, hN⟩ (0 : Fin 3) = (i 0).val := e0
  refine ⟨⟨(i 0).val, hN⟩, flush0_2 _, ?_⟩
  rw [mem_blk]
  intro a
  match a with
  | ⟨0, _⟩ =>
    show win0_2.index ⟨(i 0).val, hN⟩ (0 : Fin 3) * 1 ≤ (i 0).val
      ∧ (i 0).val < win0_2.index ⟨(i 0).val, hN⟩ (0 : Fin 3) * 1 + 1
    omega
  | ⟨1, _⟩ =>
    show win0_2.index ⟨(i 0).val, hN⟩ (1 : Fin 3) * 1024 ≤ (i 1).val
      ∧ (i 1).val < win0_2.index ⟨(i 0).val, hN⟩ (1 : Fin 3) * 1024 + 1024
    omega
  | ⟨2, _⟩ =>
    show win0_2.index ⟨(i 0).val, hN⟩ (2 : Fin 3) * 64 ≤ (i 2).val
      ∧ (i 2).val < win0_2.index ⟨(i 0).val, hN⟩ (2 : Fin 3) * 64 + 64
    omega

/-- After the region the fused result array holds the one-batch-axis product of the fused operands. -/
theorem fused_result (c : Dev nD) :
    (dats m 0 c).arrAt 2 cfg0.N = batched3 (V m c main_v0) (V m c main_v1) :=
  (dats m 0 c).arrAt_eq_of_cover 2 (batched3 (V m c main_v0) (V m c main_v1)) (fun t _ => flushed_eq m c t) covered

/-- The region finds the left operand with its batch axes fused (the first host reshape). -/
theorem entry_left (c : Dev nD) :
    (V m c main_v0 : SA3.Idx → EReal)
      = shapeCast S64x1024x1024 (m ((c : Thread nD τ).loc main_arg0)) Gen.shapeCasts_S4x16x1024x1024_S64x1024x1024 := by
  show StableHlo.after hostOps0 (fun b => m (c, b)) (Proc.devRef .tc main_v0) = _
  after_results
  rfl

/-- The region finds the right operand with its batch axes fused (the second host reshape). -/
theorem entry_right (c : Dev nD) :
    (V m c main_v1 : SB3.Idx → EReal)
      = shapeCast S64x1024x64 (m ((c : Thread nD τ).loc main_arg1)) Gen.shapeCasts_S4x16x1024x64_S64x1024x64 := by
  show StableHlo.after hostOps0 (fun b => m (c, b)) (Proc.devRef .tc main_v1) = _
  after_results
  rfl

/-- The program's result: the fused result unfused (the host reshape after the region) is the product with two batch
    axes of the operands as launched. -/
theorem result_eq (c : Dev nD) :
    Pipeline.afterTail₀ cfgs (dats m) 0 (V0 m) [hostOps1] c main_v3
      = batched4 (m ((c : Thread nD τ).loc main_arg0)) (m ((c : Thread nD τ).loc main_arg1)) := by
  unfold Pipeline.afterTail₀
  show StableHlo.after hostOps1 _ (Proc.devRef .tc main_v3) = _
  after_results
  -- the fused result array, as the region leaves it
  have hw : Pipeline.withArrays (cfgs 0).spec c (V0 m c) (fun w => (dats m 0 c).arrAt w (cfgs 0).N)
        (Proc.devRef .tc main_v2)
      = batched3 (V m c main_v0) (V m c main_v1) :=
    (Pipeline.withArrays_arr spec0 launch0.win.arr_inj c _ _ 2).trans (fused_result m c)
  show shapeCast S4x16x1024x64 (Pipeline.withArrays (cfgs 0).spec c (V0 m c)
      (fun w => (dats m 0 c).arrAt w (cfgs 0).N) (Proc.devRef .tc main_v2)) Gen.shapeCasts_S64x1024x64_S4x16x1024x64 = _
  rw [hw, entry_left, entry_right]
  exact regroup _ _ _ _ _

/-- THE RUN, READ: every weakly fair execution of the program terminates with the result array at the product with two
    batch axes of the operands as launched, and the operands unchanged. -/
theorem run : θ_run defs (onTc (τ := τ) (main (F := Ideal))) ⟨m, fun _ => 0, ρ⟩ fun r => ∀ c : Dev nD,
      r.2.mem ((c : Thread nD τ).loc main_v3)
        = batched4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.lean ====
/-
  A batched matrix product on a grid of 64 points, against one dot_general with two batch axes.

  The kernel program fuses the batch axes (4, 16) of s : [4, 16, 1024, 1024] and v : [4, 16, 1024, 64] into one axis of
  extent 64, hands slab j of each to grid point j, multiplies the two slabs on the matrix unit into a zero accumulator
  (after narrowing both to bf16, which is the identity on the extended reals) and writes slab j of a [64, 1024, 64]
  result, whose batch axis is then unfused.  The reference is jnp.einsum('bmqk,bmkh->bmqh'): one dot_general with batch
  axes (0, 1).  At the ideal instance both are

      out[b, m, q, h] = Σₖ s[b, m, q, k] · v[b, m, k, h]

  entry by entry, the same sum of the same terms in the same order: the only thing between the two sides is the
  row-major re-indexing 16·b + m of the batch axes (Proof/BatchedProduct.lean, regroup), so neither side's value uses
  the finiteness of the inputs.  The kernel side is read off its frame run (Proof/KernelRun.lean over
  Proof/BodyProduct.lean), the reference side off its run (Proof/ReferenceProduct.lean).  The ideal pass rewrote
  nothing, so the idealization's ledger is empty.
-/
import proofs.«123830_j74062416052398_1_alg».proof.Defs
import proofs.«123830_j74062416052398_1_alg».proof.Proof.Gen.Kernel
import proofs.«123830_j74062416052398_1_alg».proof.Proof.Gen.Kernel.Skeleton
import proofs.«123830_j74062416052398_1_alg».proof.Proof.Gen.Kernel.Launch
import proofs.«123830_j74062416052398_1_alg».proof.Proof.Gen.Kernel.Points
import proofs.«123830_j74062416052398_1_alg».proof.Proof.Gen.Kernel.Frame
import proofs.«123830_j74062416052398_1_alg».proof.Proof.Gen.KernelIdeal
import proofs.«123830_j74062416052398_1_alg».proof.Proof.Gen.KernelIdeal.Skeleton
import proofs.«123830_j74062416052398_1_alg».proof.Proof.Gen.KernelIdeal.Launch
import proofs.«123830_j74062416052398_1_alg».proof.Proof.Gen.KernelIdeal.Points
import proofs.«123830_j74062416052398_1_alg».proof.Proof.Gen.KernelIdeal.Frame
import proofs.«123830_j74062416052398_1_alg».proof.Proof.Gen.ReferenceIdeal
import proofs.«123830_j74062416052398_1_alg».proof.Proof.Gen.ReferenceIdeal.Run
import proofs.«123830_j74062416052398_1_alg».proof.Proof.Gen.ReferenceIdeal.Read
import proofs.«123830_j74062416052398_1_alg».proof.Proof.Gen.Pre_finite_inputs
import proofs.«123830_j74062416052398_1_alg».proof.Proof.ReferenceProduct
import proofs.«123830_j74062416052398_1_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed runs, and leaves its operands alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its operands alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the product with two batch axes of the operands: the kernel's run read as a value, and the
    reference's one dot_general read at an index, on operands that agree. -/
theorem algebraic : Cert.algebraic_KernelIdeal_ReferenceIdeal := by
  intro m ρ m' ρ' _ hagree
  refine ⟨fun c => Cert.BatchedProduct.batched4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.reference_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
